-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S64 : Shape := ⟨1, ![64]⟩
abbrev S180224x1024 : Shape := ⟨2, ![180224, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S180224x1024 : S_.BroadcastsInDim S180224x1024 (![] : Fin 0 → Fin S180224x1024.rank)
  reducesTo_S180224x1024_S_d0_1 : S180224x1024.ReducesTo [0, 1] S_

variable [Facts]

def fn_part1 {F : FTy → Type} [FloatOps F] (main_v13 : IVec S_ 1) (main_v16 : IVec S180224x1024 1) : IVec S_ 1 :=
  let main_c_5 : IVec S_ 1 := constantI S_ 1 1#1
  let main_v17 : IVec S_ 1 := (fun x v => Host.reduce IntOp.andi x v reducesTo_S180224x1024_S_d0_1 h_S_) main_v16 main_c_5
  let main_v18 : IVec S_ 1 := andi main_v13 main_v17
  main_v18

def fn {F : FTy → Type} [FloatOps F] (main_arg0 : FVec F S4096x1024 .f32) (main_arg1 : IVec S64 32) (main_arg2 : FVec F S180224x1024 .f32) (main_arg3 : FVec F S180224x1024 .f32) (main_arg4 : FVec F S180224x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S180224x1024 .f32 := Host.absf main_arg2
  let main_cst_0 : FVec F S_ .f32 := constant S_ .f32 0x7F800000#32
  let main_v5 : FVec F S180224x1024 .f32 := broadcastInDim S180224x1024 ![] bcast_S_S180224x1024 main_cst_0
  let main_v6 : IVec S180224x1024 1 := cmpf .olt main_v4 main_v5
  let main_c_1 : IVec S_ 1 := constantI S_ 1 1#1
  let main_v7 : IVec S_ 1 := (fun x v => Host.reduce IntOp.andi x v reducesTo_S180224x1024_S_d0_1 h_S_) main_v6 main_c_1
  let main_v8 : IVec S_ 1 := andi main_v3 main_v7
  let main_v9 : FVec F S180224x1024 .f32 := Host.absf main_arg3
  let main_cst_2 : FVec F S_ .f32 := constant S_ .f32 0x7F800000#32
  let main_v10 : FVec F S180224x1024 .f32 := broadcastInDim S180224x1024 ![] bcast_S_S180224x1024 main_cst_2
  let main_v11 : IVec S180224x1024 1 := cmpf .olt main_v9 main_v10
  let main_c_3 : IVec S_ 1 := constantI S_ 1 1#1
  let main_v12 : IVec S_ 1 := (fun x v => Host.reduce IntOp.andi x v reducesTo_S180224x1024_S_d0_1 h_S_) main_v11 main_c_3
  let main_v13 : IVec S_ 1 := andi main_v8 main_v12
  let main_v14 : FVec F S180224x1024 .f32 := Host.absf main_arg4
  let main_cst_4 : FVec F S_ .f32 := constant S_ .f32 0x7F800000#32
  let main_v15 : FVec F S180224x1024 .f32 := broadcastInDim S180224x1024 ![] bcast_S_S180224x1024 main_cst_4
  let main_v16 : IVec S180224x1024 1 := cmpf .olt main_v14 main_v15
  fn_part1 (F := F) main_v13 main_v16
-- ==== Kernel.lean ====
abbrev S4096x1024 : Shape := ⟨2, ![4096, 1024]⟩
abbrev S64 : Shape := ⟨1, ![64]⟩
abbrev S180224x1024 : Shape := ⟨2, ![180224, 1024]⟩
abbrev S64x64x1024 : Shape := ⟨3, ![64, 64, 1024]⟩
abbrev S64x2816x1024 : Shape := ⟨3, ![64, 2816, 1024]⟩
abbrev S1x64x1024 : Shape := ⟨3, ![1, 64, 1024]⟩
abbrev S1x704x1024 : Shape := ⟨3, ![1, 704, 1024]⟩
abbrev S64x1024 : Shape := ⟨2, ![64, 1024]⟩
abbrev S704x1024 : Shape := ⟨2, ![704, 1024]⟩
abbrev S64x704 : Shape := ⟨2, ![64, 704]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S64, .i32⟩
  | .hbm, ⟨2, _⟩ => ⟨S180224x1024, .f32⟩
  | .hbm, ⟨3, _⟩ => ⟨S180224x1024, .f32⟩
  | .hbm, ⟨4, _⟩ => ⟨S180224x1024, .f32⟩
  | .hbm, ⟨5, _⟩ => ⟨S64x64x1024, .f32⟩
  | .hbm, ⟨6, _⟩ => ⟨S64x2816x1024, .f32⟩
  | .hbm, ⟨7, _⟩ => ⟨S64x2816x1024, .f32⟩
  | .hbm, ⟨8, _⟩ => ⟨S64x2816x1024, .f32⟩
  | .hbm, ⟨9, _⟩ => ⟨S64x64x1024, .f32⟩
  | .hbm, ⟨10, _⟩ => ⟨S4096x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x704x1024, .f32⟩
  | .local _ .vmem, ⟨3, _⟩ => ⟨S1x704x1024, .f32⟩
  | .local _ .vmem, ⟨4, _⟩ => ⟨S1x704x1024, .f32⟩
  | .local _ .vmem, ⟨5, _⟩ => ⟨S1x704x1024, .f32⟩
  | .local _ .vmem, ⟨6, _⟩ => ⟨S1x704x1024, .f32⟩
  | .local _ .vmem, ⟨7, _⟩ => ⟨S1x704x1024, .f32⟩
  | .local _ .vmem, ⟨8, _⟩ => ⟨S1x64x1024, .f32⟩
  | .local _ .vmem, ⟨9, _⟩ => ⟨S1x64x1024, .f32⟩
  | .local _ .vmem, ⟨10, _⟩ => ⟨S64x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x1024_S64x64x1024 : S4096x1024.ShapeCasts S64x64x1024
  shapeCasts_S180224x1024_S64x2816x1024 : S180224x1024.ShapeCasts S64x2816x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  inb_S1x704x1024_S1x704x1024_0_0_0 : ∀ a, (![0, 0, 0] : Fin 3 → Nat) a + S1x704x1024.size a ≤ S1x704x1024.size a
  h_S1x704x1024 : 0 < S1x704x1024.numel
  shapeCasts_S1x704x1024_S704x1024 : S1x704x1024.ShapeCasts S704x1024
  shapeCasts_S64x1024_S1x64x1024 : S64x1024.ShapeCasts S1x64x1024
  shapeCasts_S64x64x1024_S4096x1024 : S64x64x1024.ShapeCasts S4096x1024
  dot_S64x1024_S704x1024_S64x704_1_1_0_0_n_n_wf : DotDims.WF S64x1024 S704x1024 S64x704 [1] [1] [0] [0] [] []
  dot_S64x704_S704x1024_S64x1024_1_0_0_1_n_n_wf : DotDims.WF S64x704 S704x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S64x64x1024.size a
  hwx0_0 : ∀ i : grid0.Coords, EltTy.bits .f32 = 32 ∨ (Rect.block (s := S64x64x1024) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x704x1024.size a ≤ S64x2816x1024.size a
  hwx0_1 : ∀ i : grid0.Coords, EltTy.bits .f32 = 32 ∨ (Rect.block (s := S64x2816x1024) S1x704x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x704x1024.size a ≤ S64x2816x1024.size a
  hwx0_2 : ∀ i : grid0.Coords, EltTy.bits .f32 = 32 ∨ (Rect.block (s := S64x2816x1024) S1x704x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x704x1024.size a ≤ S64x2816x1024.size a
  hwx0_3 : ∀ i : grid0.Coords, EltTy.bits .f32 = 32 ∨ (Rect.block (s := S64x2816x1024) S1x704x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S64x64x1024.size a
  hwx0_4 : ∀ i : grid0.Coords, EltTy.bits .f32 = 32 ∨ (Rect.block (s := S64x64x1024) S1x64x1024.size (cc0_transform_4 i) (hinb0_4 i)).WholeWords (EltTy.packing .f32)

variable [Facts₀]

def dot_S64x1024_S704x1024_S64x704_1_1_0_0_n_n : DotDims S64x1024 S704x1024 S64x704 where
  lhsContracting := [1]
  rhsContracting := [1]
  lhsNonContracting := [0]
  rhsNonContracting := [0]
  lhsBatch := []
  rhsBatch := []
  wf := dot_S64x1024_S704x1024_S64x704_1_1_0_0_n_n_wf
def dot_S64x704_S704x1024_S64x1024_1_0_0_1_n_n : DotDims S64x704 S704x1024 S64x1024 where
  lhsContracting := [1]
  rhsContracting := [0]
  lhsNonContracting := [0]
  rhsNonContracting := [1]
  lhsBatch := []
  rhsBatch := []
  wf := dot_S64x704_S704x1024_S64x1024_1_0_0_1_n_n_wf

abbrev win0_0 : Pipeline.Window sig grid0 :=
  Pipeline.Window.ofSpec (Memref.whole main_v0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x704x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x704x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x704x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S64 : Shape := ⟨1, ![64]⟩
abbrev S180224x1024 : Shape := ⟨2, ![180224, 1024]⟩
abbrev S64x64x1024 : Shape := ⟨3, ![64, 64, 1024]⟩
abbrev S64x2816x1024 : Shape := ⟨3, ![64, 2816, 1024]⟩
abbrev S64x64x2816 : Shape := ⟨3, ![64, 64, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64, .i32⟩
  | .hbm, ⟨2, _⟩ => ⟨S180224x1024, .f32⟩
  | .hbm, ⟨3, _⟩ => ⟨S180224x1024, .f32⟩
  | .hbm, ⟨4, _⟩ => ⟨S180224x1024, .f32⟩
  | .hbm, ⟨5, _⟩ => ⟨S64x64x1024, .f32⟩
  | .hbm, ⟨6, _⟩ => ⟨S64x2816x1024, .f32⟩
  | .hbm, ⟨7, _⟩ => ⟨S64x2816x1024, .f32⟩
  | .hbm, ⟨8, _⟩ => ⟨S64x2816x1024, .f32⟩
  | .hbm, ⟨9, _⟩ => ⟨S64x64x2816, .f32⟩
  | .hbm, ⟨10, _⟩ => ⟨S64x64x2816, .f32⟩
  | .hbm, ⟨11, _⟩ => ⟨S64x64x2816, .f32⟩
  | .hbm, ⟨12, _⟩ => ⟨S64x64x2816, .f32⟩
  | .hbm, ⟨13, _⟩ => ⟨S_, .f32⟩
  | .hbm, ⟨14, _⟩ => ⟨S64x64x2816, .f32⟩
  | .hbm, ⟨15, _⟩ => ⟨S64x64x2816, .f32⟩
  | .hbm, ⟨16, _⟩ => ⟨S_, .f32⟩
  | .hbm, ⟨17, _⟩ => ⟨S64x64x2816, .f32⟩
  | .hbm, ⟨18, _⟩ => ⟨S64x64x2816, .f32⟩
  | .hbm, ⟨19, _⟩ => ⟨S64x64x2816, .f32⟩
  | .hbm, ⟨20, _⟩ => ⟨S64x64x2816, .f32⟩
  | .hbm, ⟨21, _⟩ => ⟨S64x64x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  shapeCasts_S4096x1024_S64x64x1024 : S4096x1024.ShapeCasts S64x64x1024
  shapeCasts_S180224x1024_S64x2816x1024 : S180224x1024.ShapeCasts S64x2816x1024
  bcast_S_S64x64x2816 : S_.BroadcastsInDim S64x64x2816 (![] : Fin 0 → Fin S64x64x2816.rank)
  shapeCasts_S64x64x1024_S4096x1024 : S64x64x1024.ShapeCasts S4096x1024
  dot_S64x64x1024_S64x2816x1024_S64x64x2816_2_2_1_1_0_0_wf : DotDims.WF S64x64x1024 S64x2816x1024 S64x64x2816 [2] [2] [1] [1] [0] [0]
  dot_S64x64x2816_S64x2816x1024_S64x64x1024_2_1_1_2_0_0_wf : DotDims.WF S64x64x2816 S64x2816x1024 S64x64x1024 [2] [1] [1] [2] [0] [0]

variable [Facts₀]

def dot_S64x64x1024_S64x2816x1024_S64x64x2816_2_2_1_1_0_0 : DotDims S64x64x1024 S64x2816x1024 S64x64x2816 where
  lhsContracting := [2]
  rhsContracting := [2]
  lhsNonContracting := [1]
  rhsNonContracting := [1]
  lhsBatch := [0]
  rhsBatch := [0]
  wf := dot_S64x64x1024_S64x2816x1024_S64x64x2816_2_2_1_1_0_0_wf
def dot_S64x64x2816_S64x2816x1024_S64x64x1024_2_1_1_2_0_0 : DotDims S64x64x2816 S64x2816x1024 S64x64x1024 where
  lhsContracting := [2]
  rhsContracting := [1]
  lhsNonContracting := [1]
  rhsNonContracting := [2]
  lhsBatch := [0]
  rhsBatch := [0]
  wf := dot_S64x64x2816_S64x2816x1024_S64x64x1024_2_1_1_2_0_0_wf

class Facts : Prop extends Facts₀ where

variable [Facts]
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.Spec.lean ====
/-
  The mathematics both programs compute, on the extended reals: a grouped gated feed-forward layer.
  There are 64 groups (experts); group e owns 64 consecutive rows of the input, x[e] of shape 64 x 1024, and three weight
  matrices w1[e], w3[e], w2[e] of shape 2816 x 1024. For row r of group e and inner coordinate k < 2816,

      p1(e, r, k) = sum over h < 1024 of x[e, r, h] * w1[e, k, h]          (x[e] times w1[e] transposed)
      p3(e, r, k) = sum over h < 1024 of x[e, r, h] * w3[e, k, h]
      g(e, r, k)  = (p1 * logistic p1) * p3                                (silu of p1, gated by p3)

  and the result at column c < 1024 is the sum over k < 2816 of g(e, r, k) * w2[e, k, c].

  The kernel walks the inner axis in four tiles of 704 and adds the tiles' sums onto zero in order; over any additive
  commutative monoid that is the whole sum (`mlp_eq_tiles`): no distributivity is used, so nothing here asks the inputs
  to be finite.
-/
import proofs.«171318_j2302102471523_1_alg».proof.Proof.LibTiles
import Idealize.ShloMosaic.PureOps.Ideal
import Idealize.ShloMosaic.Lib.ValueIdx

noncomputable section

namespace Cert.Moe

open Idealize.ShloMosaic Idealize.ShloMosaic.ValueIdx

/-- The input grouped by expert: 64 groups of 64 rows of 1024. -/
abbrev SXg : Shape := ⟨3, ![64, 64, 1024]⟩
/-- A weight grouped by expert: 64 matrices of 2816 x 1024. -/
abbrev SWg : Shape := ⟨3, ![64, 2816, 1024]⟩

/-- Row r of group e against row k of the group's matrix w: the contraction over the 1024 hidden coordinates. -/
def proj (xg : SXg.Idx → EReal) (w : SWg.Idx → EReal) (e r : Fin 64) (k : Fin 2816) : EReal :=
  ∑ h : Fin 1024, xg (ix3 e r h) * w (ix3 e k h)

/-- silu of the first projection times the second. -/
def gated (xg : SXg.Idx → EReal) (w1 w3 : SWg.Idx → EReal) (e r : Fin 64) (k : Fin 2816) : EReal :=
  (proj xg w1 e r k * Ideal.logistic (proj xg w1 e r k)) * proj xg w3 e r k

/-- The layer's result: the gated activations against the group's third matrix, summed over the 2816 inner coordinates. -/
def mlp (xg : SXg.Idx → EReal) (w1 w3 w2 : SWg.Idx → EReal) : SXg.Idx → EReal :=
  fun i => ∑ k : Fin 2816, gated xg w1 w3 (i 0) (i 1) k * w2 (ix3 (i 0) k (i 2))

/-- Inner coordinate q of tile f, among four tiles of 704, lies below 2816. -/
theorem tile_lt (f : Fin 4) (q : Fin 704) : f.val * 704 + q.val < 2816 := Cert.LibTiles.tile_lt (a := 4) (b := 704) f q

/-- The inner coordinate of tile f at offset q. -/
abbrev tileIx (f : Fin 4) (q : Fin 704) : Fin 2816 := ⟨f.val * 704 + q.val, tile_lt f q⟩

/-- One tile's share of the result at (e, r, c). -/
def tileTerm (xg : SXg.Idx → EReal) (w1 w3 w2 : SWg.Idx → EReal) (e r : Fin 64) (c : Fin 1024) (f : Fin 4) : EReal :=
  ∑ q : Fin 704, gated xg w1 w3 e r (tileIx f q) * w2 (ix3 e (tileIx f q) c)

/-- The four tiles' shares added onto zero, first to last, are the whole sum. -/
theorem mlp_eq_tiles (xg : SXg.Idx → EReal) (w1 w3 w2 : SWg.Idx → EReal) (e r : Fin 64) (c : Fin 1024) :
    (((0 + tileTerm xg w1 w3 w2 e r c 0) + tileTerm xg w1 w3 w2 e r c 1) + tileTerm xg w1 w3 w2 e r c 2)
        + tileTerm xg w1 w3 w2 e r c 3
      = mlp xg w1 w3 w2 (ix3 e r c) := by
  have h := Cert.LibTiles.tile_sum (M := EReal) 4 704 (fun k : Fin 2816 => gated xg w1 w3 e r k * w2 (ix3 e k c))
  show _ = ∑ k : Fin 2816, gated xg w1 w3 e r k * w2 (ix3 e k c)
  refine Eq.trans ?_ h.symm
  rw [Fin.sum_univ_four, zero_add]
  rfl

end Cert.Moe

end
-- ==== Proof.RefValue.lean ====
/-
  The reference computes the layer of Spec.lean. Its program is: regroup the four float arguments by expert (four
  reshapes), contract the grouped input with the first and the second weight over the hidden axis (two batched
  products), apply silu to the first product (spelt negate, exponential, one plus, one over, times), multiply by the
  second, contract with the third weight over the inner axis, and flatten the groups again. Read one operation at a
  time at an index, the value before the last reshape is `Cert.Moe.mlp` of the regrouped arguments.
-/
import proofs.«171318_j2302102471523_1_alg».proof.Proof.Spec
import proofs.«171318_j2302102471523_1_alg».proof.Proof.Gen.ReferenceIdeal.Read

noncomputable section

namespace Cert.Moe.Ref

open Cert.ReferenceIdeal Cert.ReferenceIdeal.Gen Cert.ReferenceIdeal.Read
open Idealize.ShloMosaic Idealize.ShloMosaic.ValueIdx

/-- The float word 0x3F800000 is the real number one. -/
theorem one_f32 : Ideal.ofBits .f32 0x3F800000#32 = 1 := by
  simp [Ideal.ofBits, Ideal.ieee, -EReal.coe_mul]; norm_num

/-- The first two products read the grouped input at (e, r, h) … -/
theorem lidx4 (e r : Fin 64) (k : Fin 2816) (h : Fin 1024) : lidx_main_v4 (ix3 e r k) h = ix3 e r h :=
  funext fun a => by match a with | ⟨0, _⟩ => rfl | ⟨1, _⟩ => rfl | ⟨2, _⟩ => rfl
/-- … and the grouped weight at (e, k, h). -/
theorem ridx4 (e r : Fin 64) (k : Fin 2816) (h : Fin 1024) : ridx_main_v4 (ix3 e r k) h = ix3 e k h :=
  funext fun a => by match a with | ⟨0, _⟩ => rfl | ⟨1, _⟩ => rfl | ⟨2, _⟩ => rfl
theorem lidx5 (e r : Fin 64) (k : Fin 2816) (h : Fin 1024) : lidx_main_v5 (ix3 e r k) h = ix3 e r h :=
  funext fun a => by match a with | ⟨0, _⟩ => rfl | ⟨1, _⟩ => rfl | ⟨2, _⟩ => rfl
theorem ridx5 (e r : Fin 64) (k : Fin 2816) (h : Fin 1024) : ridx_main_v5 (ix3 e r k) h = ix3 e k h :=
  funext fun a => by match a with | ⟨0, _⟩ => rfl | ⟨1, _⟩ => rfl | ⟨2, _⟩ => rfl
/-- The last product reads the gated activations at (e, r, k) and the third weight at (e, k, c). -/
theorem lidx8 (e r : Fin 64) (c : Fin 1024) (k : Fin 2816) : lidx_main_v8 (ix3 e r c) k = ix3 e r k :=
  funext fun a => by match a with | ⟨0, _⟩ => rfl | ⟨1, _⟩ => rfl | ⟨2, _⟩ => rfl
theorem ridx8 (e r : Fin 64) (c : Fin 1024) (k : Fin 2816) : ridx_main_v8 (ix3 e r c) k = ix3 e k c :=
  funext fun a => by match a with | ⟨0, _⟩ => rfl | ⟨1, _⟩ => rfl | ⟨2, _⟩ => rfl

variable (x0 : (⟨S4096x1024, .f32⟩ : BufTy).Contents (Elt Ideal)) (x2 x3 x4 : (⟨S180224x1024, .f32⟩ : BufTy).Contents (Elt Ideal))

/-- The first product is the first projection. -/
theorem v4_at (e r : Fin 64) (k : Fin 2816) :
    val_main_v4 (F := Ideal) x0 x2 (ix3 e r k) = proj (val_main_v0 (F := Ideal) x0) (val_main_v1 (F := Ideal) x2) e r k := by
  rw [val_main_v4_apply]
  exact Finset.sum_congr rfl fun h _ => by rw [lidx4, ridx4]

/-- The second product is the second projection. -/
theorem v5_at (e r : Fin 64) (k : Fin 2816) :
    val_main_v5 (F := Ideal) x0 x3 (ix3 e r k) = proj (val_main_v0 (F := Ideal) x0) (val_main_v2 (F := Ideal) x3) e r k := by
  rw [val_main_v5_apply]
  exact Finset.sum_congr rfl fun h _ => by rw [lidx5, ridx5]

/-- One over one plus the exponential of the negated product is the logistic function of the product. -/
theorem sigm_at (i : S64x64x2816.Idx) :
    val_main_call0_v5 (F := Ideal) x0 x2 i = Ideal.logistic (val_main_v4 (F := Ideal) x0 x2 i) := by
  have e1 : (FloatOps.ofBits (F := Ideal) .f32 0x3F800000#32 : Ideal .f32) = 1 := one_f32
  rw [val_main_call0_v5_apply, val_main_call0_v4_apply, val_main_call0_cst_0_apply, val_main_call0_v3_apply,
    val_main_call0_v2_apply, val_main_call0_cst_apply, val_main_call0_v1_apply, val_main_call0_v0_apply, e1]
  rfl

/-- The gated activations. -/
theorem v7_at (e r : Fin 64) (k : Fin 2816) :
    val_main_v7 (F := Ideal) x0 x2 x3 (ix3 e r k)
      = gated (val_main_v0 (F := Ideal) x0) (val_main_v1 (F := Ideal) x2) (val_main_v2 (F := Ideal) x3) e r k := by
  rw [val_main_v7_apply, val_main_v6_apply, sigm_at, v4_at, v5_at]
  rfl

/-- The value before the last reshape is the layer of the regrouped arguments. -/
theorem v8_eq :
    val_main_v8 (F := Ideal) x0 x2 x3 x4
      = mlp (val_main_v0 (F := Ideal) x0) (val_main_v1 (F := Ideal) x2) (val_main_v2 (F := Ideal) x3) (val_main_v3 (F := Ideal) x4) := by
  funext i
  obtain ⟨e, r, c, rfl⟩ : ∃ (e r : Fin 64) (c : Fin 1024), i = ix3 e r c := ⟨i 0, i 1, i 2, eq_ix3 i⟩
  rw [val_main_v8_apply]
  show _ = ∑ k : Fin 2816, gated _ _ _ e r k * _
  exact Finset.sum_congr rfl fun k _ => by rw [lidx8, ridx8, v7_at]

end Cert.Moe.Ref

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.Payload.lean ====
/-
  One grid step of the kernel, as arithmetic. A step holds one expert's 64 x 1024 block of the input and one tile of
  704 rows of each weight matrix (every block with a leading axis of extent one), and adds onto the accumulator,
  at row r and column c,

      sum over q < 704 of ((p1 * logistic p1) * p3)(r, q) * w2blk[q, c],   p1(r, q) = sum over h of xblk[r, h] * w1blk[q, h]

  (p3 likewise with the second weight tile). On the extended reals the narrowing of the operands before each
  matrix product is the identity, a matrix product into the zero accumulator is the plain sum over the contracted
  coordinate, and the unit axis is dropped by reading at leading coordinate zero.
-/
import proofs.«171318_j2302102471523_1_alg».proof.Proof.LibContract
import proofs.«171318_j2302102471523_1_alg».proof.Proof.LibContractRhsT
import proofs.«171318_j2302102471523_1_alg».proof.Proof.Gen.KernelIdeal.Skeleton
import Idealize.ShloMosaic.Lib.ValueLayout
import Idealize.ShloMosaic.Lib.Pipeline.Value
import Idealize.ShloMosaic.PureOps.Ideal.Laws

noncomputable section

namespace Cert.Moe.Kern

open Cert.KernelIdeal Cert.KernelIdeal.Gen
open Idealize.ShloMosaic Idealize.ShloMosaic.ValueIdx

/-- Row r of the input block against row q of a weight tile. -/
def blkProj (xb : S1x64x1024.Idx → EReal) (wb : S1x704x1024.Idx → EReal) (r : Fin 64) (q : Fin 704) : EReal :=
  ∑ h : Fin 1024, xb (ix3 0 r h) * wb (ix3 0 q h)

/-- What one step adds to the accumulator at (r, c). -/
def blkTerm (xb : S1x64x1024.Idx → EReal) (w1b w3b w2b : S1x704x1024.Idx → EReal) (r : Fin 64) (c : Fin 1024) : EReal :=
  ∑ q : Fin 704, ((blkProj xb w1b r q * Ideal.logistic (blkProj xb w1b r q)) * blkProj xb w3b r q) * w2b (ix3 0 q c)

/-- The first two products contract both operands' last axes. -/
theorem dims_proj : dot_S64x1024_S704x1024_S64x704_1_1_0_0_n_n = DotDims.transposedRhs 64 1024 704 := rfl
/-- The third contracts the activations' last axis with the tile's first. -/
theorem dims_out : dot_S64x704_S704x1024_S64x1024_1_0_0_1_n_n = DotDims.plain 64 704 1024 := rfl

/-- A projection as the kernel computes it: both blocks with their unit axis dropped and narrowed, multiplied into zero. -/
theorem proj_at (xb : Vec Ideal S1x64x1024 .f32) (wb : Vec Ideal S1x704x1024 .f32) (r : Fin 64) (q : Fin 704) :
    matmul dot_S64x1024_S704x1024_S64x704_1_1_0_0_n_n none
        (truncf .bf16 (shapeCast S64x1024 xb shapeCasts_S1x64x1024_S64x1024 : FVec Ideal S64x1024 .f32) bitsLt_bf16_f32)
        (truncf .bf16 (shapeCast S704x1024 wb shapeCasts_S1x704x1024_S704x1024 : FVec Ideal S704x1024 .f32) bitsLt_bf16_f32)
        (constant S64x704 .f32 0x00000000#32) (ix2 r q)
      = blkProj xb wb r q := by
  rw [dims_proj, Cert.LibContractRhsT.matmul_zero_apply]
  refine Finset.sum_congr rfl fun h _ => ?_
  rw [truncf_apply, truncf_apply, shapeCast_1ab_ab_apply, shapeCast_1ab_ab_apply]

/-- The accumulator's new contents at (r, c): the old plus the step's term. -/
theorem pay2_at (v3 : Vec Ideal S1x64x1024 .f32) (v6 v9 v18 : Vec Ideal S1x704x1024 .f32) (v22 : Vec Ideal S64x1024 .f32)
    (r : Fin 64) (c : Fin 1024) :
    k0_pay2 (F := Ideal) v3 v6 v9 v18 v22 (ix2 r c) = v22 (ix2 r c) + blkTerm v3 v6 v9 v18 r c := by
  unfold k0_pay2
  rw [shapeCast_self, addf_apply, dims_out, Cert.LibDense.matmul_plain_zero_apply]
  refine congrArg (v22 (ix2 r c) + ·) (Finset.sum_congr rfl fun q _ => ?_)
  rw [truncf_apply, truncf_apply, mulf_apply, mulf_apply, shapeCast_1ab_ab_apply,
    show ∀ (z : FVec Ideal S64x704 .f32) (j : S64x704.Idx), logistic z j = Ideal.logistic (z j) from fun _ _ => rfl,
    proj_at, proj_at]

/-- The accumulator's reset: zero everywhere. -/
theorem pay1_at (j : S64x1024.Idx) : k0_pay1 (F := Ideal) j = 0 := by
  unfold k0_pay1
  rw [shapeCast_self]
  exact Ideal.ofBits_zero_f32

/-- The output block is the accumulator with a unit axis in front. -/
theorem pay3_at (v30 : Vec Ideal S64x1024 .f32) (u : Fin 1) (r : Fin 64) (c : Fin 1024) :
    k0_pay3 (F := Ideal) v30 (ix3 u r c) = v30 (ix2 r c) := by
  unfold k0_pay3
  exact shapeCast_ab_1ab_apply v30 _ u r c

end Cert.Moe.Kern

end
-- ==== Proof.Pieces.lean ====
/-
  What one run of the kernel body leaves behind, case by case, as values. The body has three cases by the position
  f of the step among an expert's four tiles: at f = 0 it clears the accumulator and then adds the step's term; at
  f = 1, 2 it adds the step's term to what the step before left; at f = 3 it does the same and copies the accumulator
  to the output block. Every store covers its whole buffer and every load reads a whole buffer, so the contents left
  are the store's payload over the loaded contents.
-/
import proofs.«171318_j2302102471523_1_alg».proof.Proof.Gen.KernelIdeal.Frame
import Idealize.ShloMosaic.Lib.Pipeline.Value
import Idealize.ShloMosaic.Lib.Tactic

set_option maxRecDepth 16384

noncomputable section

namespace Cert.Moe.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the accumulator ends at the step's sum over the cleared accumulator. -/
theorem acc_first (c : Dev nD) (i : grid0.Coords) (arg2 : Memref sig .tc .vmem S1x64x1024 .f32) (harg2 : arg2.IsWhole) (arg3 : Memref sig .tc .vmem S1x704x1024 .f32) (harg3 : arg3.IsWhole) (arg4 : Memref sig .tc .vmem S1x704x1024 .f32) (harg4 : arg4.IsWhole) (arg5 : Memref sig .tc .vmem S1x704x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i) (x0 : Vec F S1x64x1024 .f32) (x1 x2 x3 : Vec F S1x704x1024 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S64x1024) hz2]
  simp only [View.readAt_eq_ld, harg2.read_unread, harg3.read_unread, harg4.read_unread, harg5.read_unread, harg7.read_unread,
    View.readCov_unit_zero (S := S64x1024) _ hz2,
    View.ld_unit_zero (S := S64x1024) hz2, View.ld_unit_zero (S := S1x64x1024) hz3, View.ld_unit_zero (S := S1x704x1024) hz3]

/-- Middle tiles: the accumulator ends at the step's sum over what it held. -/
theorem acc_mid (c : Dev nD) (i : grid0.Coords) (arg2 : Memref sig .tc .vmem S1x64x1024 .f32) (harg2 : arg2.IsWhole) (arg3 : Memref sig .tc .vmem S1x704x1024 .f32) (harg3 : arg3.IsWhole) (arg4 : Memref sig .tc .vmem S1x704x1024 .f32) (harg4 : arg4.IsWhole) (arg5 : Memref sig .tc .vmem S1x704x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i) (x0 : Vec F S1x64x1024 .f32) (x1 x2 x3 : Vec F S1x704x1024 .f32) (xs0 : Vec F S64x1024 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.readCov_unit_zero (S := S64x1024) _ hz2,
    View.ld_unit_zero (S := S64x1024) hz2, View.ld_unit_zero (S := S1x64x1024) hz3, View.ld_unit_zero (S := S1x704x1024) hz3]

/-- Last tile: the accumulator as in the middle tiles … -/
theorem acc_last (c : Dev nD) (i : grid0.Coords) (arg2 : Memref sig .tc .vmem S1x64x1024 .f32) (harg2 : arg2.IsWhole) (arg3 : Memref sig .tc .vmem S1x704x1024 .f32) (harg3 : arg3.IsWhole) (arg4 : Memref sig .tc .vmem S1x704x1024 .f32) (harg4 : arg4.IsWhole) (arg5 : Memref sig .tc .vmem S1x704x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i) (x0 : Vec F S1x64x1024 .f32) (x1 x2 x3 : Vec F S1x704x1024 .f32) (xs0 : Vec F S64x1024 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.readCov_unit_zero (S := S64x1024) _ hz2,
    View.ld_unit_zero (S := S64x1024) hz2, View.ld_unit_zero (S := S1x64x1024) hz3, View.ld_unit_zero (S := S1x704x1024) hz3]

/-- … and the output block is that accumulator, re-laid with a unit axis in front. -/
theorem out_last (c : Dev nD) (i : grid0.Coords) (arg2 : Memref sig .tc .vmem S1x64x1024 .f32) (harg2 : arg2.IsWhole) (arg3 : Memref sig .tc .vmem S1x704x1024 .f32) (harg3 : arg3.IsWhole) (arg4 : Memref sig .tc .vmem S1x704x1024 .f32) (harg4 : arg4.IsWhole) (arg5 : Memref sig .tc .vmem S1x704x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i) (x0 : Vec F S1x64x1024 .f32) (x1 x2 x3 : Vec F S1x704x1024 .f32) (xs0 : Vec F S64x1024 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread,
    View.readCov_unit_zero (S := S64x1024) _ hz2,
    View.ld_unit_zero (S := S64x1024) hz2, View.ld_unit_zero (S := S1x64x1024) hz3, View.ld_unit_zero (S := S1x704x1024) hz3]

end Cert.Moe.Pieces

end
-- ==== Proof.KernValue.lean ====
/-
  The kernel's result array, read off its run. The grid has 256 steps, step n working on expert n / 4 and inner tile
  n % 4. The accumulator is cleared at tile 0 and holds, after tile f, the terms of tiles 0 … f added in order; at tile 3
  it is copied to the output block, which is written back as block n / 4 of the grouped result. So the grouped result
  ends at `Cert.Moe.mlp` of the grouped inputs as the region finds them — the four regrouping reshapes of the
  arguments —, and the last host line flattens it.
-/
import proofs.«171318_j2302102471523_1_alg».proof.Proof.Spec
import proofs.«171318_j2302102471523_1_alg».proof.Proof.Payload
import proofs.«171318_j2302102471523_1_alg».proof.Proof.Pieces
import proofs.«171318_j2302102471523_1_alg».proof.Proof.Gen.KernelIdeal.Frame
import Idealize.ShloMosaic.Lib.Pipeline.Value
import Idealize.ShloMosaic.Lib.StableHlo.Run

set_option maxRecDepth 16384

noncomputable section

namespace Cert.Moe.KVal

open Cert.KernelIdeal Cert.KernelIdeal.Gen Cert.Moe Cert.Moe.Kern Cert.Moe.Pieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The grouped input and the three grouped weights, as the region finds them. -/
abbrev xg (c : Dev nD) : SXg.Idx → EReal := V m c main_v0
abbrev w1g (c : Dev nD) : SWg.Idx → EReal := V m c main_v1
abbrev w3g (c : Dev nD) : SWg.Idx → EReal := V m c main_v2
abbrev w2g (c : Dev nD) : SWg.Idx → EReal := V m c main_v3

/-! ## Which block each window holds at step t -/

/-- The input's and the output's block index is (t / 4, 0, 0). -/
theorem idx_facts0 : ∀ t : Fin cfg0.N,
    win0_0.index t (0 : Fin 3) = t.val / 4 ∧ win0_0.index t (1 : Fin 3) = 0 ∧ win0_0.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)
/-- A weight's block index is (t / 4, t % 4, 0). -/
theorem idx_facts1 : ∀ t : Fin cfg0.N, True ∧ True ∧ True ∧
    win0_1.index t (0 : Fin 3) = t.val / 4 ∧ win0_1.index t (1 : Fin 3) = t.val % 4 ∧ win0_1.index t (2 : Fin 3) = 0 ∧ True :=
  (by decide +kernel : ∀ t : Fin grid0.N, _)
theorem idx_facts2 : ∀ t : Fin cfg0.N, True ∧ True ∧ True ∧
    win0_2.index t (0 : Fin 3) = t.val / 4 ∧ win0_2.index t (1 : Fin 3) = t.val % 4 ∧ win0_2.index t (2 : Fin 3) = 0 ∧ True :=
  (by decide +kernel : ∀ t : Fin grid0.N, _)
theorem idx_facts3 : ∀ t : Fin cfg0.N, True ∧ True ∧ True ∧
    win0_3.index t (0 : Fin 3) = t.val / 4 ∧ win0_3.index t (1 : Fin 3) = t.val % 4 ∧ win0_3.index t (2 : Fin 3) = 0 ∧ True :=
  (by decide +kernel : ∀ t : Fin grid0.N, _)

/-- The input window's block at step t is expert e's 64 rows. -/
theorem xblk_at (c : Dev nD) (t : Fin cfg0.N) (e : Fin 64) (he : e.val = t.val / 4) (r : Fin 64) (h : Fin 1024) :
    (iblk m c 0 t : Vec Ideal S1x64x1024 .f32) (ix3 0 r h) = xg m c (ix3 e r h) := by
  obtain ⟨i0, i1, i2, -⟩ := idx_facts0 t
  unfold iblk
  rw [View.read_apply]
  show V m c main_v0 _ = V m c main_v0 _
  congr 1
  funext a
  apply Fin.ext
  match a with
  | ⟨0, _⟩ => show win0_0.index t 0 * 1 + 1 * ((0 : Fin 1) : ℕ) = e.val; rw [i0, he]; simp
  | ⟨1, _⟩ => show win0_0.index t 1 * 64 + 1 * r.val = r.val; rw [i1]; omega
  | ⟨2, _⟩ => show win0_0.index t 2 * 1024 + 1 * h.val = h.val; rw [i2]; omega

/-- Weight window 1's block at step t holds rows 704·f … 704·f + 703 of expert e's matrix, f the step's tile. -/
theorem w1blk_at (c : Dev nD) (t : Fin cfg0.N) (e : Fin 64) (f : Fin 4) (he : e.val = t.val / 4) (hf : f.val = t.val % 4)
    (q : Fin 704) (h : Fin 1024) :
    (iblk m c 1 t : Vec Ideal S1x704x1024 .f32) (ix3 0 q h) = w1g m c (ix3 e (tileIx f q) h) := by
  obtain ⟨-, -, -, i0, i1, i2, -⟩ := idx_facts1 t
  unfold iblk
  rw [View.read_apply]
  show V m c main_v1 _ = V m c main_v1 _
  congr 1
  funext a
  apply Fin.ext
  match a with
  | ⟨0, _⟩ => show win0_1.index t 0 * 1 + 1 * ((0 : Fin 1) : ℕ) = e.val; rw [i0, he]; simp
  | ⟨1, _⟩ => show win0_1.index t 1 * 704 + 1 * q.val = f.val * 704 + q.val; rw [i1, hf]; omega
  | ⟨2, _⟩ => show win0_1.index t 2 * 1024 + 1 * h.val = h.val; rw [i2]; omega

/-- Weight window 2's block at step t holds rows 704·f … 704·f + 703 of expert e's matrix, f the step's tile. -/
theorem w3blk_at (c : Dev nD) (t : Fin cfg0.N) (e : Fin 64) (f : Fin 4) (he : e.val = t.val / 4) (hf : f.val = t.val % 4)
    (q : Fin 704) (h : Fin 1024) :
    (iblk m c 2 t : Vec Ideal S1x704x1024 .f32) (ix3 0 q h) = w3g m c (ix3 e (tileIx f q) h) := by
  obtain ⟨-, -, -, i0, i1, i2, -⟩ := idx_facts2 t
  unfold iblk
  rw [View.read_apply]
  show V m c main_v2 _ = V m c main_v2 _
  congr 1
  funext a
  apply Fin.ext
  match a with
  | ⟨0, _⟩ => show win0_2.index t 0 * 1 + 1 * ((0 : Fin 1) : ℕ) = e.val; rw [i0, he]; simp
  | ⟨1, _⟩ => show win0_2.index t 1 * 704 + 1 * q.val = f.val * 704 + q.val; rw [i1, hf]; omega
  | ⟨2, _⟩ => show win0_2.index t 2 * 1024 + 1 * h.val = h.val; rw [i2]; omega

/-- Weight window 3's block at step t holds rows 704·f … 704·f + 703 of expert e's matrix, f the step's tile. -/
theorem w2blk_at (c : Dev nD) (t : Fin cfg0.N) (e : Fin 64) (f : Fin 4) (he : e.val = t.val / 4) (hf : f.val = t.val % 4)
    (q : Fin 704) (h : Fin 1024) :
    (iblk m c 3 t : Vec Ideal S1x704x1024 .f32) (ix3 0 q h) = w2g m c (ix3 e (tileIx f q) h) := by
  obtain ⟨-, -, -, i0, i1, i2, -⟩ := idx_facts3 t
  unfold iblk
  rw [View.read_apply]
  show V m c main_v3 _ = V m c main_v3 _
  congr 1
  funext a
  apply Fin.ext
  match a with
  | ⟨0, _⟩ => show win0_3.index t 0 * 1 + 1 * ((0 : Fin 1) : ℕ) = e.val; rw [i0, he]; simp
  | ⟨1, _⟩ => show win0_3.index t 1 * 704 + 1 * q.val = f.val * 704 + q.val; rw [i1, hf]; omega
  | ⟨2, _⟩ => show win0_3.index t 2 * 1024 + 1 * h.val = h.val; rw [i2]; omega

/-- A block projection is the array's projection at the tile's inner coordinate. -/
theorem blkProj1_at (c : Dev nD) (t : Fin cfg0.N) (e : Fin 64) (f : Fin 4) (he : e.val = t.val / 4) (hf : f.val = t.val % 4)
    (r : Fin 64) (q : Fin 704) :
    blkProj (iblk m c 0 t) (iblk m c 1 t) r q = proj (xg m c) (w1g m c) e r (tileIx f q) := by
  unfold blkProj proj
  exact Finset.sum_congr rfl fun h _ => by rw [xblk_at m c t e he, w1blk_at m c t e f he hf]
theorem blkProj3_at (c : Dev nD) (t : Fin cfg0.N) (e : Fin 64) (f : Fin 4) (he : e.val = t.val / 4) (hf : f.val = t.val % 4)
    (r : Fin 64) (q : Fin 704) :
    blkProj (iblk m c 0 t) (iblk m c 2 t) r q = proj (xg m c) (w3g m c) e r (tileIx f q) := by
  unfold blkProj proj
  exact Finset.sum_congr rfl fun h _ => by rw [xblk_at m c t e he, w3blk_at m c t e f he hf]

/-- The term step t adds is tile f's share of expert e's result. -/
theorem blkTerm_at (c : Dev nD) (t : Fin cfg0.N) (e : Fin 64) (f : Fin 4) (he : e.val = t.val / 4) (hf : f.val = t.val % 4)
    (r : Fin 64) (col : Fin 1024) :
    blkTerm (iblk m c 0 t) (iblk m c 1 t) (iblk m c 2 t) (iblk m c 3 t) r col
      = tileTerm (xg m c) (w1g m c) (w3g m c) (w2g m c) e r col f := by
  unfold blkTerm tileTerm gated
  exact Finset.sum_congr rfl fun q _ => by
    rw [blkProj1_at m c t e f he hf, blkProj3_at m c t e f he hf, w2blk_at m c t e f he hf]

/-! ## The accumulator, step by step -/

/-- At an expert's first tile the accumulator ends at the step's sum over zero. -/
theorem acc_A (c : Dev nD) (n : ℕ) (hn : n < cfg0.N) (h0 : n % 4 = 0) :
    (outsAt0 m c n hn).2 = k0_pay2 (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (k0_pay1 (F := Ideal)) := by
  have h1 : ¬n % 4 = 3 := by omega
  show (outsAt0 m c (⟨n, hn⟩ : Fin cfg0.N).val (⟨n, hn⟩ : Fin cfg0.N).isLt).2 = _
  rw [outsAt0_A m c (⟨n, hn⟩ : Fin cfg0.N) h0 h1]
  dsimp only
  exact acc_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N))

/-- At a middle tile it ends at the step's sum over what the step before left. -/
theorem acc_B (c : Dev nD) (n : ℕ) (hn : n < cfg0.N) (h0 : ¬n % 4 = 0) (h1 : ¬n % 4 = 3) :
    (outsAt0 m c n hn).2 = k0_pay2 (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) (Nat.lt_of_le_of_lt (Nat.sub_le _ _) hn)).2 := by
  show (outsAt0 m c (⟨n, hn⟩ : Fin cfg0.N).val (⟨n, hn⟩ : Fin cfg0.N).isLt).2 = _
  rw [outsAt0_B m c (⟨n, hn⟩ : Fin cfg0.N) h0 h1]
  dsimp only
  exact acc_mid (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) (Nat.lt_of_le_of_lt (Nat.sub_le _ _) hn)).2

/-- At the last tile the output block is the accumulator's last contents, re-laid. -/
theorem out_C (c : Dev nD) (n : ℕ) (hn : n < cfg0.N) (h0 : ¬n % 4 = 0) (h1 : n % 4 = 3) :
    (outsAt0 m c n hn).1 = k0_pay3 (k0_pay2 (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) (Nat.lt_of_le_of_lt (Nat.sub_le _ _) hn)).2) := by
  show (outsAt0 m c (⟨n, hn⟩ : Fin cfg0.N).val (⟨n, hn⟩ : Fin cfg0.N).isLt).1 = _
  rw [outsAt0_C m c (⟨n, hn⟩ : Fin cfg0.N) h0 h1]
  dsimp only
  exact out_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) (Nat.lt_of_le_of_lt (Nat.sub_le _ _) hn)).2

/-- The output block written at an expert's last tile holds the expert's rows of the layer's result. -/
theorem out_at (c : Dev nD) (n : ℕ) (hn : n < cfg0.N) (h3 : n % 4 = 3) (e : Fin 64) (he : e.val = n / 4)
    (u : Fin 1) (r : Fin 64) (col : Fin 1024) :
    ((outsAt0 m c n hn).1 : Vec Ideal S1x64x1024 .f32) (ix3 u r col)
      = mlp (xg m c) (w1g m c) (w3g m c) (w2g m c) (ix3 e r col) := by
  have hN : cfg0.N = 256 := N_0
  have hn2 : n - 1 < cfg0.N := by omega
  have hn1 : n - 1 - 1 < cfg0.N := by omega
  have hn0 : n - 1 - 1 - 1 < cfg0.N := by omega
  rw [out_C m c n hn (by omega) h3, pay3_at, pay2_at,
    acc_B m c (n - 1) hn2 (by omega) (by omega), pay2_at,
    acc_B m c (n - 1 - 1) hn1 (by omega) (by omega), pay2_at,
    acc_A m c (n - 1 - 1 - 1) hn0 (by omega), pay2_at, pay1_at,
    blkTerm_at m c ⟨n, hn⟩ e 3 (by simpa using he) (by show (3 : ℕ) = n % 4; omega),
    blkTerm_at m c ⟨n - 1, hn2⟩ e 2 (by show e.val = (n - 1) / 4; omega) (by show (2 : ℕ) = (n - 1) % 4; omega),
    blkTerm_at m c ⟨n - 1 - 1, hn1⟩ e 1 (by show e.val = (n - 1 - 1) / 4; omega) (by show (1 : ℕ) = (n - 1 - 1) % 4; omega),
    blkTerm_at m c ⟨n - 1 - 1 - 1, hn0⟩ e 0 (by show e.val = (n - 1 - 1 - 1) / 4; omega) (by show (0 : ℕ) = (n - 1 - 1 - 1) % 4; omega)]
  exact mlp_eq_tiles _ _ _ _ e r col

end Cert.Moe.KVal

end
-- ==== Proof.KernRun.lean ====
/-
  From the output blocks to the program's result. Step n with n % 4 = 3 writes its output block back as block
  (n / 4, 0, 0) of the grouped result; these 64 blocks tile it, so it ends at the layer of the grouped inputs. The
  grouped inputs are the regrouping reshapes of the arguments, and the program's result is the flattening reshape of
  the grouped result.
-/
import proofs.«171318_j2302102471523_1_alg».proof.Proof.KernValue

set_option maxRecDepth 16384

noncomputable section

namespace Cert.Moe.KVal

open Cert.KernelIdeal Cert.KernelIdeal.Gen Cert.Moe Cert.Moe.Kern Cert.Moe.Pieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The grouped result after the run. -/
abbrev grouped (c : Dev nD) : SXg.Idx → EReal := mlp (xg m c) (w1g m c) (w3g m c) (w2g m c)

/-- An element of the output block at a writing step, where it lands in the grouped result. -/
theorem flushed_pt (c : Dev nD) (t : Fin cfg0.N) (h3 : t.val % 4 = 3) (y : S1x64x1024.Idx) :
    ((outsAt0 m c t.val t.isLt).1 : Vec Ideal S1x64x1024 .f32) y = grouped m c (((cfg0.win 4).blk t).view.emb y) := by
  have hN : cfg0.N = 256 := N_0
  have ht : t.val < 256 := lt_of_lt_of_eq t.isLt hN
  obtain ⟨-, -, -, i0, i1, i2⟩ := idx_facts0 t
  obtain ⟨u, r, col, rfl⟩ : ∃ (u : Fin 1) (r : Fin 64) (col : Fin 1024), y = ix3 u r col := ⟨y 0, y 1, y 2, eq_ix3 y⟩
  have hemb : ((cfg0.win 4).blk t).view.emb (ix3 u r col) = ix3 (⟨t.val / 4, by omega⟩ : Fin 64) r col := by
    funext a
    apply Fin.ext
    match a with
    | ⟨0, _⟩ => show win0_4.index t 0 * 1 + 1 * u.val = t.val / 4; rw [i0]; omega
    | ⟨1, _⟩ => show win0_4.index t 1 * 64 + 1 * r.val = r.val; rw [i1]; omega
    | ⟨2, _⟩ => show win0_4.index t 2 * 1024 + 1 * col.val = col.val; rw [i2]; omega
  rw [hemb]
  exact out_at m c t.val t.isLt h3 ⟨t.val / 4, by omega⟩ rfl u r col

/-- What a writing step writes back is its block of the grouped result. -/
theorem flushed_eq (c : Dev nD) (t : Fin cfg0.N) (hf : (cfg0.win 4).flush t = true) :
    (dats m 0 c).flushed 4 t = ((cfg0.win 4).blk t).view.read (Elt Ideal) (grouped m c) := by
  have h3 : t.val % 4 = 3 := (flush0_4 t).mp hf
  show (cfg0.win 4).cut (grid0.coords t) ((dats m 0 c).after 4 t) = _
  rw [after0_4]
  funext y
  rw [View.read_apply]
  exact flushed_pt m c t h3 y

/-- An index of the grouped result is in step t's block iff each coordinate is in the block's range on its axis. -/
theorem mem_blk (t : Fin cfg0.N) (i : S64x64x1024.Idx) :
    i ∈ ((cfg0.win 4).blk t).view.set ↔ ∀ a : Fin 3, win0_4.index t a * S1x64x1024.size a ≤ (i a).val ∧ (i a).val < win0_4.index t a * S1x64x1024.size a + S1x64x1024.size a := by
  show i ∈ ((View.whole main_v4).slice (win0_4.rect t)).set ↔ _
  rw [View.set_slice_whole, Rect.mem_set_unit]
  exact Iff.rfl

/-- The grouped result after the run is the layer of the grouped inputs: row (e, r) is covered by step 4 e + 3. -/
theorem final (c : Dev nD) : (dats m 0 c).arrAt 4 cfg0.N = grouped m c :=
  (dats m 0 c).arrAt_eq_of_cover 4 (grouped m c) (flushed_eq m c) fun i => by
    have hN : cfg0.N = 256 := N_0
    have hi0 : (i 0).val < 64 := (i 0).isLt
    have hi1 : (i 1).val < 64 := (i 1).isLt
    have hi2 : (i 2).val < 1024 := (i 2).isLt
    have hlt : 4 * (i 0).val + 3 < cfg0.N := by omega
    refine ⟨⟨4 * (i 0).val + 3, hlt⟩, (flush0_4 _).mpr (by show (4 * (i 0).val + 3) % 4 = 3; omega), ?_⟩
    obtain ⟨-, -, -, j0, j1, j2⟩ := idx_facts0 ⟨4 * (i 0).val + 3, hlt⟩
    rw [mem_blk]
    intro a
    match a with
    | ⟨0, _⟩ => show win0_4.index ⟨4 * (i 0).val + 3, hlt⟩ 0 * 1 ≤ (i 0).val ∧ (i 0).val < win0_4.index ⟨4 * (i 0).val + 3, hlt⟩ 0 * 1 + 1; rw [j0]; show (4 * (i 0).val + 3) / 4 * 1 ≤ (i 0).val ∧ (i 0).val < (4 * (i 0).val + 3) / 4 * 1 + 1; omega
    | ⟨1, _⟩ => show win0_4.index ⟨4 * (i 0).val + 3, hlt⟩ 1 * 64 ≤ (i 1).val ∧ (i 1).val < win0_4.index ⟨4 * (i 0).val + 3, hlt⟩ 1 * 64 + 64; rw [j1]; omega
    | ⟨2, _⟩ => show win0_4.index ⟨4 * (i 0).val + 3, hlt⟩ 2 * 1024 ≤ (i 2).val ∧ (i 2).val < win0_4.index ⟨4 * (i 0).val + 3, hlt⟩ 2 * 1024 + 1024; rw [j2]; omega

/-! ## The host lines around the region -/

/-- The region finds the grouped input at the regrouping reshape of the first argument … -/
theorem xg_eq (c : Dev nD) :
    xg m c = shapeCast S64x64x1024 (m ((c : Thread nD τ).loc main_arg0)) shapeCasts_S4096x1024_S64x64x1024 := by
  show StableHlo.after hostOps0 (fun b => m (c, b)) (Proc.devRef .tc main_v0) = _
  after_results; rfl
/-- … and the grouped weights at the reshapes of the three weight arguments. -/
theorem w1g_eq (c : Dev nD) :
    w1g m c = shapeCast S64x2816x1024 (m ((c : Thread nD τ).loc main_arg2)) shapeCasts_S180224x1024_S64x2816x1024 := by
  show StableHlo.after hostOps0 (fun b => m (c, b)) (Proc.devRef .tc main_v1) = _
  after_results; rfl
theorem w3g_eq (c : Dev nD) :
    w3g m c = shapeCast S64x2816x1024 (m ((c : Thread nD τ).loc main_arg3)) shapeCasts_S180224x1024_S64x2816x1024 := by
  show StableHlo.after hostOps0 (fun b => m (c, b)) (Proc.devRef .tc main_v2) = _
  after_results; rfl
theorem w2g_eq (c : Dev nD) :
    w2g m c = shapeCast S64x2816x1024 (m ((c : Thread nD τ).loc main_arg4)) shapeCasts_S180224x1024_S64x2816x1024 := by
  show StableHlo.after hostOps0 (fun b => m (c, b)) (Proc.devRef .tc main_v3) = _
  after_results; rfl

/-- The program's result: the grouped result, flattened. -/
theorem tail_eq (c : Dev nD) :
    Pipeline.afterTail₀ cfgs (dats m) 0 (V0 m) [hostOps1] c main_v5
      = shapeCast S4096x1024 (grouped m c) shapeCasts_S64x64x1024_S4096x1024 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = grouped m c := (Pipeline.withArrays_arr spec0 launch0.win.arr_inj c _ _ 4).trans (final m c)
  exact congrArg (fun z => shapeCast S4096x1024 z shapeCasts_S64x64x1024_S4096x1024) hw

/-- The grouped result in terms of the arguments. -/
theorem grouped_eq (c : Dev nD) :
    grouped m c = mlp (shapeCast S64x64x1024 (m ((c : Thread nD τ).loc main_arg0)) shapeCasts_S4096x1024_S64x64x1024)
      (shapeCast S64x2816x1024 (m ((c : Thread nD τ).loc main_arg2)) shapeCasts_S180224x1024_S64x2816x1024)
      (shapeCast S64x2816x1024 (m ((c : Thread nD τ).loc main_arg3)) shapeCasts_S180224x1024_S64x2816x1024)
      (shapeCast S64x2816x1024 (m ((c : Thread nD τ).loc main_arg4)) shapeCasts_S180224x1024_S64x2816x1024) := by
  unfold grouped
  rw [xg_eq, w1g_eq, w3g_eq, w2g_eq]

/-- The run, read: the result at the flattened layer of the regrouped arguments, the arguments unchanged. -/
theorem run : θ_run defs (onTc (τ := τ) (main (F := Ideal))) ⟨m, fun _ => 0, ρ⟩ fun r => ∀ c : Dev nD,
      r.2.mem ((c.tc : Thread nD τ).loc main_v5) = shapeCast S4096x1024 (grouped m c) shapeCasts_S64x64x1024_S4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Moe.KVal

end
-- ==== Proof.lean ====
/-
  A grouped gated feed-forward layer (64 experts, 64 tokens each, hidden width 1024, inner width 2816), the kernel
  against its jnp reference, over the extended reals.

  Both programs regroup the four float arguments by expert and flatten the grouped result at the end, with the same
  reshapes. In between the reference contracts each expert's 64 x 1024 input with the first and second weight over the
  hidden axis, applies silu to the first product and multiplies by the second, and contracts with the third weight over
  all 2816 inner coordinates at once. The kernel does the same one inner tile of 704 at a time: four grid steps per
  expert, an accumulator cleared at the first, each step adding its tile's contribution, the accumulator copied out at
  the fourth. On the extended reals the narrowing of matrix-product operands is the identity, the kernel's logistic
  is the reference's one over one plus the exponential of the negation, and a sum over 2816 = 4 · 704 coordinates is the
  four tile sums added onto zero in order: only associativity and commutativity of addition, so the finiteness of the
  inputs is never used.

  The frames of the two kernel programs are the generated ones; the reference's frame is its generated run with the
  result dropped; the idealization rewrote nothing.
-/
import proofs.«171318_j2302102471523_1_alg».proof.Defs
import proofs.«171318_j2302102471523_1_alg».proof.Proof.Gen.Kernel
import proofs.«171318_j2302102471523_1_alg».proof.Proof.Gen.Kernel.Skeleton
import proofs.«171318_j2302102471523_1_alg».proof.Proof.Gen.Kernel.Launch
import proofs.«171318_j2302102471523_1_alg».proof.Proof.Gen.Kernel.Points
import proofs.«171318_j2302102471523_1_alg».proof.Proof.Gen.Kernel.Frame
import proofs.«171318_j2302102471523_1_alg».proof.Proof.Gen.KernelIdeal
import proofs.«171318_j2302102471523_1_alg».proof.Proof.Gen.KernelIdeal.Skeleton
import proofs.«171318_j2302102471523_1_alg».proof.Proof.Gen.KernelIdeal.Launch
import proofs.«171318_j2302102471523_1_alg».proof.Proof.Gen.KernelIdeal.Points
import proofs.«171318_j2302102471523_1_alg».proof.Proof.Gen.KernelIdeal.Frame
import proofs.«171318_j2302102471523_1_alg».proof.Proof.Gen.ReferenceIdeal
import proofs.«171318_j2302102471523_1_alg».proof.Proof.Gen.Pre_finite_inputs
import proofs.«171318_j2302102471523_1_alg».proof.Proof.Gen.ReferenceIdeal.Run
import proofs.«171318_j2302102471523_1_alg».proof.Proof.Gen.ReferenceIdeal.Read
import proofs.«171318_j2302102471523_1_alg».proof.Proof.RefValue
import proofs.«171318_j2302102471523_1_alg».proof.Proof.KernRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the flattened layer of the regrouped arguments, which agree. -/
theorem algebraic : Cert.algebraic_KernelIdeal_ReferenceIdeal := by
  intro m ρ m' ρ' _ hagree
  refine ⟨fun c => shapeCast Cert.KernelIdeal.S4096x1024 (Cert.Moe.KVal.grouped m c) Cert.KernelIdeal.Facts₀.shapeCasts_S64x64x1024_S4096x1024,
    Cert.Moe.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq]
  unfold Cert.ReferenceIdeal.Read.val_main_v9
  rw [Cert.Moe.Ref.v8_eq, (hagree c).1, (hagree c).2.2.1, (hagree c).2.2.2.1, (hagree c).2.2.2.2]
  show _ = shapeCast Cert.KernelIdeal.S4096x1024 (Cert.Moe.KVal.grouped m c) _
  rw [Cert.Moe.KVal.grouped_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
